-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S512x2048 : Shape := ⟨2, ![512, 2048]⟩
abbrev S512x256 : Shape := ⟨2, ![512, 256]⟩
abbrev S256x2048 : Shape := ⟨2, ![256, 2048]⟩
abbrev S256 : Shape := ⟨1, ![256]⟩
abbrev S1x256 : Shape := ⟨2, ![1, 256]⟩

abbrev nBuf : Space → Nat
  | .hbm => 31
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S8192x2048, .bf16⟩
  | .hbm, ⟨28, _⟩ => ⟨S8192x2048, .bf16⟩
  | .hbm, ⟨29, _⟩ => ⟨S8192x2048, .f32⟩
  | .hbm, ⟨30, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256, .f32⟩
  | .local _ .vmem, ⟨11, _⟩ => ⟨S256, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256, .f32⟩
  | .local _ .vmem, ⟨17, _⟩ => ⟨S256, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256, .f32⟩
  | .local _ .vmem, ⟨23, _⟩ => ⟨S256, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S256, .f32⟩
  | .local _ .vmem, ⟨29, _⟩ => ⟨S256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S2048.size a
  hwx0_5 : ∀ i : grid0.Coords, EltTy.bits .f32 = 32 ∨ (Rect.block (s := S2048) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S2048.size a
  hwx0_8 : ∀ i : grid0.Coords, EltTy.bits .f32 = 32 ∨ (Rect.block (s := S2048) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S2048.size a
  hwx0_11 : ∀ i : grid0.Coords, EltTy.bits .f32 = 32 ∨ (Rect.block (s := S2048) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .bf16 = 32 ∨ (Rect.block (s := S2048x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S2048.size a
  hwx0_14 : ∀ i : grid0.Coords, EltTy.bits .f32 = 32 ∨ (Rect.block (s := S2048) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S8192x2048.size a
  hwx0_15 : ∀ i : grid0.Coords, EltTy.bits .f32 = 32 ∨ (Rect.block (s := S8192x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S8192x2048.size a
  hwx0_16 : ∀ i : grid0.Coords, EltTy.bits .f32 = 32 ∨ (Rect.block (s := S8192x2048) S512x256.size (cc0_transform_16 i) (hinb0_16 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v16) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S256x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S256x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S4096x2048 : Shape := ⟨2, ![4096, 2048]⟩
abbrev S1x2048 : Shape := ⟨2, ![1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S4096x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S4096x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S4096x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S4096x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.LibDotRhsT.lean ====
/-
  A matrix product whose right operand is stored by OUTPUT COLUMN, `[M, K] × [N, K] → [M, N]`, read at one
  element at the ideal values, at any extents.

  Both operands are contracted along their second axis (no batch axis): row `p` of the left operand against
  row `q` of the right one. On the extended reals the element `(p, q)` of a `tpu.matmul` into a zero
  accumulator is `∑ k, lhs (p, k) · rhs (q, k)`, `k` running over the `K` positions of the shared axis — the
  product `lhs · rhsᵀ` with no transpose ever formed. The dimension numbers enter through equations on their
  lists, so that a program's own record (whose lists are literals) supplies each by `rfl`.
-/
import Idealize.ShloMosaic.Lib.ValueIdx
import Idealize.ShloMosaic.PureOps.Ideal.Laws

open scoped BigOperators

namespace Idealize.ShloMosaic.DotRhsT

open Idealize.ShloMosaic Idealize.ShloMosaic.ValueIdx

variable {M K N : Nat} (d : DotDims ⟨2, ![M, K]⟩ ⟨2, ![N, K]⟩ ⟨2, ![M, N]⟩)

/-- An index read at two spellings of one position gives one coordinate. -/
private theorem coord_congr {s : Shape} (j : s.Idx) (a b : Nat) (ha : a < s.rank) (hb : b < s.rank) (h : a = b) :
    (j ⟨a, ha⟩).val = (j ⟨b, hb⟩).val := by subst h; rfl

/-- The left operand is read in the result's row. -/
theorem lhs_axis0 (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact coord_congr j _ _ _ _ (by simp [hlb, hln])

/-- The left operand's second axis runs with the contraction. -/
theorem lhs_axis1 (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand is read in the row named by the result's COLUMN. -/
theorem rhs_axis0 (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil),
    dif_pos (show (0 : Fin 2) ∈ d.rhsNonContracting by rw [hrn]; exact List.mem_singleton.mpr rfl)]
  simp only [Fin.val_cast]
  exact coord_congr j _ _ _ _ (by simp [hlb, hln, hrn])

/-- The right operand's second axis runs with the contraction too. -/
theorem rhs_axis1 (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

section Sum

variable (hlb : d.lhsBatch = []) (hrb : d.rhsBatch = []) (hln : d.lhsNonContracting = [0])
  (hrn : d.rhsNonContracting = [0]) (hlc : d.lhsContracting = [1]) (hrc : d.rhsContracting = [1])
  (hr : d.contr.rank = 1) (hs : d.contr.size ⟨0, by omega⟩ = K)

include hlb hrb hln hrn hlc hrc hr hs

/-- The contraction's sum over the record's own index type is the sum over the `K` positions of the shared axis. -/
theorem sum_contr (lhs : (⟨2, ![M, K]⟩ : Shape).Idx → EReal) (rhs : (⟨2, ![N, K]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_axis0 d hlb hln _ _
    | ⟨1, _⟩ => exact (lhs_axis1 d hlc _ _).trans hk
  have er : d.rhsIdx (ix2 p q) ((contrEquiv1 d K hr hs).symm k) = ix2 q k := by
    funext a; refine Fin.ext ?_
    match a with
    | ⟨0, _⟩ => exact rhs_axis0 d hlb hrb hln hrn _ _
    | ⟨1, _⟩ => exact (rhs_axis1 d hrc _ _).trans hk
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

end Sum

end Idealize.ShloMosaic.DotRhsT
-- ==== Proof.KernelGate.lean ====
/-
  The kernel body's two stored values, read at one element of the output block, as arithmetic on the loaded blocks.

  At a grid point the body holds a block of 512 batch rows of `x` and of `h` (all 2048 columns), the matching
  [512, 256] block of the cell state, and per gate the 256 rows of the two halves of the weight matrix that belong to
  the point's 256 hidden units, with those units' biases. Each gate multiplies the `x` rows against the first
  half's rows and the `h` rows against the second half's rows — both products contract the operands' second axes,
  so no transpose is formed — adds the two, and adds the bias row broadcast down the 512 rows. At the ideal values a
  product into a zero accumulator is the plain sum over the 2048 shared positions, and a change of float format is
  the identity, so the block's element `(p, q)` of a gate is `preBlk` below; the two stores are the logistic and
  tanh functions of those, combined with the cell block.
-/
import proofs.«150189_j9878424781322_1_alg».proof.Proof.Gen.KernelIdeal.Skeleton
import proofs.«150189_j9878424781322_1_alg».proof.Proof.LibDotRhsT
import Idealize.ShloMosaic.Lib.ValueLayout

open scoped BigOperators

noncomputable section

namespace Cert.Lstm.Body

open Cert.KernelIdeal Cert.KernelIdeal.Gen
open Idealize.ShloMosaic Idealize.ShloMosaic.ValueIdx

/-- One gate's pre-activation on the blocks a grid point holds: row `p` of the `x` block against row `q` of the
    first-half weight block, row `p` of the `h` block against row `q` of the second-half weight block, plus unit
    `q`'s bias. -/
def preBlk (xb hb : S512x2048.Idx → EReal) (wi wh : S256x2048.Idx → EReal) (b : S256.Idx → EReal) (p : Fin 512)
    (q : Fin 256) : EReal :=
  (∑ k : Fin 2048, xb (ix2 p k) * wi (ix2 q k)) + (∑ k : Fin 2048, hb (ix2 p k) * wh (ix2 q k)) + b (ix1 q)

/-- The body's matrix product into the zero splat, at `(p, q)`: the sum over the 2048 shared positions. -/
theorem mm_apply (a : FVec Ideal S512x2048 .bf16) (w : FVec Ideal S256x2048 .bf16) (p : Fin 512) (q : Fin 256) :
    matmul dot_S512x2048_S256x2048_S512x256_1_1_0_0_n_n none a w (constant S512x256 .f32 0x00000000#32) (ix2 p q)
      = ∑ k : Fin 2048, a (ix2 p k) * w (ix2 q k) :=
  DotRhsT.matmul_zero_apply dot_S512x2048_S256x2048_S512x256_1_1_0_0_n_n rfl rfl rfl rfl rfl rfl rfl rfl none a w p q

/-- The bias row laid under every batch row: at `(p, q)` it is unit `q`'s bias. -/
theorem bias_apply {α : Type} (b : S256.Idx → α) (hc : S256.ShapeCasts S1x256) (hb : S1x256.Broadcasts S512x256)
    (p : Fin 512) (q : Fin 256) : broadcastTo S512x256 (shapeCast S1x256 b hc) hb (ix2 p q) = b (ix1 q) := by
  rw [broadcastTo_1b_ab_apply, shapeCast_a_1a_apply]

/-- The forget gate's pre-activation (the first gate computed), at `(p, q)`. -/
theorem pay5_apply (v0 v2 : Vec Ideal S512x2048 .bf16) (v5 v7 : Vec Ideal S256x2048 .bf16) (v12 : Vec Ideal S256 .f32)
    (p : Fin 512) (q : Fin 256) : k0_pay5 (F := Ideal) v0 v2 v5 v7 v12 (ix2 p q) = preBlk v0 v2 v5 v7 v12 p q := by
  unfold k0_pay5 k0_pay3 k0_pay4 preBlk
  simp only [shapeCast_self, addf_apply, mm_apply, bias_apply]

/-- The input gate's pre-activation (the second gate computed), at `(p, q)`. -/
theorem pay6_apply (v0 v2 : Vec Ideal S512x2048 .bf16) (v16 v18 : Vec Ideal S256x2048 .bf16) (v23 : Vec Ideal S256 .f32)
    (p : Fin 512) (q : Fin 256) : k0_pay6 (F := Ideal) v0 v2 v16 v18 v23 (ix2 p q) = preBlk v0 v2 v16 v18 v23 p q := by
  unfold k0_pay6 k0_pay3 k0_pay4 preBlk
  simp only [shapeCast_self, addf_apply, mm_apply, bias_apply]

/-- The new hidden state's block, at `(p, q)`: the tanh of the cell block's element times the logistic function of
    the output gate's pre-activation. -/
theorem pay2_apply (v0 v2 : Vec Ideal S512x2048 .bf16) (v4 : Vec Ideal S512x256 .f32) (v38 v40 : Vec Ideal S256x2048 .bf16)
    (v45 : Vec Ideal S256 .f32) (p : Fin 512) (q : Fin 256) :
    k0_pay2 (F := Ideal) (k0_pay3 v0) (k0_pay4 v2) v4 v38 v40 v45 (ix2 p q)
      = Ideal.tanh (v4 (ix2 p q)) * Ideal.logistic (preBlk v0 v2 v38 v40 v45 p q) := by
  unfold k0_pay2 k0_pay3 k0_pay4 preBlk
  simp only [shapeCast_self, mulf_apply, addf_apply, mm_apply, bias_apply, tanh, logistic, Ideal.tanh_def,
    Ideal.logistic_def]

/-- The new cell state's block, at `(p, q)`: the cell block's element through the forget gate plus the candidate
    (the tanh of the third gate's pre-activation) through the input gate. -/
theorem pay1_apply (v0 v2 : Vec Ideal S512x2048 .bf16) (v4 : Vec Ideal S512x256 .f32) (v5 v7 : Vec Ideal S256x2048 .bf16)
    (v12 : Vec Ideal S256 .f32) (v16 v18 : Vec Ideal S256x2048 .bf16) (v23 : Vec Ideal S256 .f32)
    (v27 v29 : Vec Ideal S256x2048 .bf16) (v34 : Vec Ideal S256 .f32) (p : Fin 512) (q : Fin 256) :
    k0_pay1 (F := Ideal) (k0_pay4 v2) v4 (k0_pay5 v0 v2 v5 v7 v12) (k0_pay6 v0 v2 v16 v18 v23) (k0_pay7 v29)
        (k0_pay8 v0 v27) (constant S512x256 .f32 0x00000000#32) v34 (ix2 p q)
      = v4 (ix2 p q) * Ideal.logistic (preBlk v0 v2 v5 v7 v12 p q)
        + Ideal.logistic (preBlk v0 v2 v16 v18 v23 p q) * Ideal.tanh (preBlk v0 v2 v27 v29 v34 p q) := by
  unfold k0_pay1
  simp only [mulf_apply, addf_apply, tanh, logistic, Ideal.tanh_def, Ideal.logistic_def, pay5_apply, pay6_apply]
  unfold k0_pay8 k0_pay7 k0_pay4 k0_pay3 preBlk
  simp only [shapeCast_self, mm_apply, bias_apply]

end Cert.Lstm.Body

end
-- ==== Proof.LstmSpec.lean ====
/-
  What one LSTM step computes, as functions of the argument arrays over the extended reals, index by index.

  The arrays: the input `x` and the hidden state `h`, both [8192, 2048]; the cell state `c` [8192, 2048]; per gate a
  weight matrix `W` [2048, 4096] whose first 2048 columns meet `x` and whose last 2048 columns meet `h`, and a bias
  `b` [2048]. A gate's pre-activation at batch row `p` and hidden unit `q` is

      pre x h W b p q = ∑ k, x (p, k) · W (q, k)  +  ∑ k, h (p, k) · W (q, 2048 + k)  +  b q,

  the product of the row `[x (p, ·), h (p, ·)]` of length 4096 with row `q` of `W`, plus the bias, the sum over the
  4096 positions written as its two halves. The step's results are

      newH = tanh c · σ (pre W₄ b₄),        newC = c · σ (pre W₁ b₁) + σ (pre W₂ b₂) · tanh (pre W₃ b₃),

  with `σ z = 1 / (1 + e^(-z))` the logistic function (note that `newH` takes the tanh of the OLD cell state).
  The one law needed to set the two-halves form beside a single sum over the joined row is that a sum over
  `Fin 4096` is the sum over its first 2048 positions plus the sum over its last 2048: additions only regrouped, so
  it holds on the extended reals without any finiteness.
-/
import Idealize.ShloMosaic.Lib.ValueIdx
import Idealize.ShloMosaic.PureOps.Ideal

open scoped BigOperators

noncomputable section

namespace Cert.Lstm

open Idealize.ShloMosaic Idealize.ShloMosaic.ValueIdx

/-- The activations' shape, a weight matrix's and a bias's. -/
abbrev Act : Shape := ⟨2, ![8192, 2048]⟩
abbrev Wt : Shape := ⟨2, ![2048, 4096]⟩
abbrev Bias : Shape := ⟨1, ![2048]⟩

/-- Position `k` of the first half of a weight row (the columns that meet `x`). -/
def lo (k : Fin 2048) : Fin 4096 := ⟨k.val, by omega⟩
/-- Position `k` of the second half of a weight row (the columns that meet `h`). -/
def hi (k : Fin 2048) : Fin 4096 := ⟨2048 + k.val, by omega⟩

@[simp] theorem lo_val (k : Fin 2048) : (lo k).val = k.val := rfl
@[simp] theorem hi_val (k : Fin 2048) : (hi k).val = 2048 + k.val := rfl

/-- A sum over the 4096 positions of a joined row is the sum over its first half plus the sum over its second. -/
theorem sum_halves {M : Type} [AddCommMonoid M] (f : Fin 4096 → M) :
    ∑ k : Fin 4096, f k = (∑ k : Fin 2048, f (lo k)) + ∑ k : Fin 2048, f (hi k) :=
  Fin.sum_univ_add (a := 2048) (b := 2048) f

/-- A gate's pre-activation at batch row `p` and hidden unit `q`. -/
def pre (x h : Act.Idx → EReal) (W : Wt.Idx → EReal) (b : Bias.Idx → EReal) (p : Fin 8192) (q : Fin 2048) : EReal :=
  (∑ k : Fin 2048, x (ix2 p k) * W (ix2 q (lo k))) + (∑ k : Fin 2048, h (ix2 p k) * W (ix2 q (hi k))) + b (ix1 q)

/-- The new hidden state: the tanh of the old cell state, gated by the output gate. -/
def newH (x h c : Act.Idx → EReal) (W4 : Wt.Idx → EReal) (b4 : Bias.Idx → EReal) : Act.Idx → EReal := fun j =>
  Ideal.tanh (c j) * Ideal.logistic (pre x h W4 b4 (j 0) (j 1))

/-- The new cell state: the old one through the forget gate plus the candidate through the input gate. -/
def newC (x h c : Act.Idx → EReal) (W1 : Wt.Idx → EReal) (b1 : Bias.Idx → EReal) (W2 : Wt.Idx → EReal)
    (b2 : Bias.Idx → EReal) (W3 : Wt.Idx → EReal) (b3 : Bias.Idx → EReal) : Act.Idx → EReal := fun j =>
  c j * Ideal.logistic (pre x h W1 b1 (j 0) (j 1))
    + Ideal.logistic (pre x h W2 b2 (j 0) (j 1)) * Ideal.tanh (pre x h W3 b3 (j 0) (j 1))

end Cert.Lstm

end
-- ==== Proof.LstmWindows.lean ====
/-
  The kernel's input windows, read element by element as the argument arrays.

  Before the launch the host casts `x` and `h` to bf16 and cuts every weight matrix [2048, 4096] into its first and
  second 2048 columns, cast likewise; at the ideal values a change of format is the identity, so those arrays hold
  the arguments' own numbers: the cast of `x` is `x`, and the first (second) half of `W` at `(q, k)` is `W (q, k)`
  (`W (q, 2048 + k)`). The grid runs over 8 column tiles of 256 hidden units (slow axis) and 16 row tiles of 512 batch
  rows (fast axis). At a point with row tile `a` and column tile `b`: the `x` and `h` windows hold rows
  `512 a + p` (all columns); the cell window and the two output windows hold rows `512 a + p`, columns `256 b + q`;
  every weight-half window holds rows `256 b + q` (all 2048 columns) and every bias window entries `256 b + q`.
  Each lemma below reads one window's block at literal coordinates as its argument array at those shifted
  coordinates; the tile indices enter as the printed index maps' values, related to the output window's once and for
  all by deciding them over the 128 grid points.
-/
import proofs.«150189_j9878424781322_1_alg».proof.Proof.Gen.KernelIdeal.Frame
import proofs.«150189_j9878424781322_1_alg».proof.Proof.LstmSpec
import Idealize.ShloMosaic.Lib.StableHlo.Run
import Idealize.ShloMosaic.Lib.ValueLayout

open scoped BigOperators

noncomputable section

namespace Cert.Lstm.Win

open Cert.KernelIdeal Cert.KernelIdeal.Gen Idealize.ShloMosaic Idealize.ShloMosaic.TcCoe Idealize.SL.Sem
open Idealize.ShloMosaic.ValueIdx Cert.Lstm

variable (m : (ℓ : Loc nD τ sig) → Buf (Elt Ideal) ℓ)

/-! ## The argument arrays, by name -/

abbrev argX (c : Dev nD) : S8192x2048.Idx → EReal := m ((c : Thread nD τ).loc main_arg0)
abbrev argH (c : Dev nD) : S8192x2048.Idx → EReal := m ((c : Thread nD τ).loc main_arg1)
abbrev argC (c : Dev nD) : S8192x2048.Idx → EReal := m ((c : Thread nD τ).loc main_arg2)
abbrev argW1 (c : Dev nD) : S2048x4096.Idx → EReal := m ((c : Thread nD τ).loc main_arg3)
abbrev argB1 (c : Dev nD) : S2048.Idx → EReal := m ((c : Thread nD τ).loc main_arg4)
abbrev argW2 (c : Dev nD) : S2048x4096.Idx → EReal := m ((c : Thread nD τ).loc main_arg5)
abbrev argB2 (c : Dev nD) : S2048.Idx → EReal := m ((c : Thread nD τ).loc main_arg6)
abbrev argW3 (c : Dev nD) : S2048x4096.Idx → EReal := m ((c : Thread nD τ).loc main_arg7)
abbrev argB3 (c : Dev nD) : S2048.Idx → EReal := m ((c : Thread nD τ).loc main_arg8)
abbrev argW4 (c : Dev nD) : S2048x4096.Idx → EReal := m ((c : Thread nD τ).loc main_arg9)
abbrev argB4 (c : Dev nD) : S2048.Idx → EReal := m ((c : Thread nD τ).loc main_arg10)

/-! ## What the host wrote before the launch -/

/-- The bf16 copy of `x` holds `x`. -/
theorem V_x_apply (c : Dev nD) (i : S8192x2048.Idx) : (V m c main_v16 : S8192x2048.Idx → EReal) i = argX m c i := by
  have e : @Eq (FVec Ideal S8192x2048 .bf16) (V m c main_v16) (truncf .bf16 (argX m c) Gen.bitsLt_bf16_f32) := by
    dsimp only [Gen.V, Gen.hostOps0]; after_results
  rw [e]; rfl

/-- The bf16 copy of `h` holds `h`. -/
theorem V_h_apply (c : Dev nD) (i : S8192x2048.Idx) : (V m c main_v17 : S8192x2048.Idx → EReal) i = argH m c i := by
  have e : @Eq (FVec Ideal S8192x2048 .bf16) (V m c main_v17) (truncf .bf16 (argH m c) Gen.bitsLt_bf16_f32) := by
    dsimp only [Gen.V, Gen.hostOps0]; after_results
  rw [e]; rfl

/-- The first half of `W₁`, cast: at `(q, k)` it is `W₁ (q, k)`. -/
theorem V_w1x_apply (c : Dev nD) (q k : Fin 2048) :
    (V m c main_v1 : S2048x2048.Idx → EReal) (ix2 q k) = argW1 m c (ix2 q (lo k)) := by
  have e : @Eq (FVec Ideal S2048x2048 .bf16) (V m c main_v1)
      (truncf .bf16 (extractStridedSlice S2048x2048 ![0, 0] (argW1 m c) Gen.slices_S2048x4096_S2048x2048_0_0) Gen.bitsLt_bf16_f32) := by
    dsimp only [Gen.V, Gen.hostOps0]; after_results
  rw [e, truncf_apply]
  exact slice2_axis1_apply 0 (argW1 m c) _ q k (lo k) (by simp)

/-- The second half of `W₁`, cast: at `(q, k)` it is `W₁ (q, 2048 + k)`. -/
theorem V_w1h_apply (c : Dev nD) (q k : Fin 2048) :
    (V m c main_v3 : S2048x2048.Idx → EReal) (ix2 q k) = argW1 m c (ix2 q (hi k)) := by
  have e : @Eq (FVec Ideal S2048x2048 .bf16) (V m c main_v3)
      (truncf .bf16 (extractStridedSlice S2048x2048 ![0, 2048] (argW1 m c) Gen.slices_S2048x4096_S2048x2048_0_2048) Gen.bitsLt_bf16_f32) := by
    dsimp only [Gen.V, Gen.hostOps0]; after_results
  rw [e, truncf_apply]
  exact slice2_axis1_apply 2048 (argW1 m c) _ q k (hi k) (by simp)

/-- The first half of `W₂`, cast. -/
theorem V_w2x_apply (c : Dev nD) (q k : Fin 2048) :
    (V m c main_v5 : S2048x2048.Idx → EReal) (ix2 q k) = argW2 m c (ix2 q (lo k)) := by
  have e : @Eq (FVec Ideal S2048x2048 .bf16) (V m c main_v5)
      (truncf .bf16 (extractStridedSlice S2048x2048 ![0, 0] (argW2 m c) Gen.slices_S2048x4096_S2048x2048_0_0) Gen.bitsLt_bf16_f32) := by
    dsimp only [Gen.V, Gen.hostOps0]; after_results
  rw [e, truncf_apply]
  exact slice2_axis1_apply 0 (argW2 m c) _ q k (lo k) (by simp)

/-- The second half of `W₂`, cast. -/
theorem V_w2h_apply (c : Dev nD) (q k : Fin 2048) :
    (V m c main_v7 : S2048x2048.Idx → EReal) (ix2 q k) = argW2 m c (ix2 q (hi k)) := by
  have e : @Eq (FVec Ideal S2048x2048 .bf16) (V m c main_v7)
      (truncf .bf16 (extractStridedSlice S2048x2048 ![0, 2048] (argW2 m c) Gen.slices_S2048x4096_S2048x2048_0_2048) Gen.bitsLt_bf16_f32) := by
    dsimp only [Gen.V, Gen.hostOps0]; after_results
  rw [e, truncf_apply]
  exact slice2_axis1_apply 2048 (argW2 m c) _ q k (hi k) (by simp)

/-- The first half of `W₃`, cast. -/
theorem V_w3x_apply (c : Dev nD) (q k : Fin 2048) :
    (V m c main_v9 : S2048x2048.Idx → EReal) (ix2 q k) = argW3 m c (ix2 q (lo k)) := by
  have e : @Eq (FVec Ideal S2048x2048 .bf16) (V m c main_v9)
      (truncf .bf16 (extractStridedSlice S2048x2048 ![0, 0] (argW3 m c) Gen.slices_S2048x4096_S2048x2048_0_0) Gen.bitsLt_bf16_f32) := by
    dsimp only [Gen.V, Gen.hostOps0]; after_results
  rw [e, truncf_apply]
  exact slice2_axis1_apply 0 (argW3 m c) _ q k (lo k) (by simp)

/-- The second half of `W₃`, cast. -/
theorem V_w3h_apply (c : Dev nD) (q k : Fin 2048) :
    (V m c main_v11 : S2048x2048.Idx → EReal) (ix2 q k) = argW3 m c (ix2 q (hi k)) := by
  have e : @Eq (FVec Ideal S2048x2048 .bf16) (V m c main_v11)
      (truncf .bf16 (extractStridedSlice S2048x2048 ![0, 2048] (argW3 m c) Gen.slices_S2048x4096_S2048x2048_0_2048) Gen.bitsLt_bf16_f32) := by
    dsimp only [Gen.V, Gen.hostOps0]; after_results
  rw [e, truncf_apply]
  exact slice2_axis1_apply 2048 (argW3 m c) _ q k (hi k) (by simp)

/-- The first half of `W₄`, cast. -/
theorem V_w4x_apply (c : Dev nD) (q k : Fin 2048) :
    (V m c main_v13 : S2048x2048.Idx → EReal) (ix2 q k) = argW4 m c (ix2 q (lo k)) := by
  have e : @Eq (FVec Ideal S2048x2048 .bf16) (V m c main_v13)
      (truncf .bf16 (extractStridedSlice S2048x2048 ![0, 0] (argW4 m c) Gen.slices_S2048x4096_S2048x2048_0_0) Gen.bitsLt_bf16_f32) := by
    dsimp only [Gen.V, Gen.hostOps0]; after_results
  rw [e, truncf_apply]
  exact slice2_axis1_apply 0 (argW4 m c) _ q k (lo k) (by simp)

/-- The second half of `W₄`, cast. -/
theorem V_w4h_apply (c : Dev nD) (q k : Fin 2048) :
    (V m c main_v15 : S2048x2048.Idx → EReal) (ix2 q k) = argW4 m c (ix2 q (hi k)) := by
  have e : @Eq (FVec Ideal S2048x2048 .bf16) (V m c main_v15)
      (truncf .bf16 (extractStridedSlice S2048x2048 ![0, 2048] (argW4 m c) Gen.slices_S2048x4096_S2048x2048_0_2048) Gen.bitsLt_bf16_f32) := by
    dsimp only [Gen.V, Gen.hostOps0]; after_results
  rw [e, truncf_apply]
  exact slice2_axis1_apply 2048 (argW4 m c) _ q k (hi k) (by simp)

/-! ## The windows' blocks at literal coordinates -/

/-- The `x` window: row `p` of the block is row `P = 512 a + p` of `x`. -/
theorem x_blk (c : Dev nD) (t : Fin cfg0.N) (p : Fin 512) (k : Fin 2048) (P : Fin 8192)
    (hP : P.val = win0_0.index t (0 : Fin 2) * 512 + p.val) (h0 : win0_0.index t (1 : Fin 2) = 0) :
    (iblk m c 0 t : S512x2048.Idx → EReal) (ix2 p k) = argX m c (ix2 P k) := by
  show (V m c main_v16 : S8192x2048.Idx → EReal) (((cfg0.win 0).blk t).view.emb (ix2 p k)) = _
  rw [V_x_apply]
  refine congrArg (argX m c) (funext fun a => Fin.ext ?_)
  match a with
  | ⟨0, _⟩ => show win0_0.index t (0 : Fin 2) * 512 + 1 * p.val = P.val; omega
  | ⟨1, _⟩ => show win0_0.index t (1 : Fin 2) * 2048 + 1 * k.val = k.val; omega

/-- The `h` window: row `p` of the block is row `P` of `h`. -/
theorem h_blk (c : Dev nD) (t : Fin cfg0.N) (p : Fin 512) (k : Fin 2048) (P : Fin 8192)
    (hP : P.val = win0_1.index t (0 : Fin 2) * 512 + p.val) (h0 : win0_1.index t (1 : Fin 2) = 0) :
    (iblk m c 1 t : S512x2048.Idx → EReal) (ix2 p k) = argH m c (ix2 P k) := by
  show (V m c main_v17 : S8192x2048.Idx → EReal) (((cfg0.win 1).blk t).view.emb (ix2 p k)) = _
  rw [V_h_apply]
  refine congrArg (argH m c) (funext fun a => Fin.ext ?_)
  match a with
  | ⟨0, _⟩ => show win0_1.index t (0 : Fin 2) * 512 + 1 * p.val = P.val; omega
  | ⟨1, _⟩ => show win0_1.index t (1 : Fin 2) * 2048 + 1 * k.val = k.val; omega

/-- The cell window: element `(p, q)` of the block is `c (P, Q)`. -/
theorem c_blk (c : Dev nD) (t : Fin cfg0.N) (p : Fin 512) (q : Fin 256) (P : Fin 8192) (Q : Fin 2048)
    (hP : P.val = win0_2.index t (0 : Fin 2) * 512 + p.val) (hQ : Q.val = win0_2.index t (1 : Fin 2) * 256 + q.val) :
    (iblk m c 2 t : S512x256.Idx → EReal) (ix2 p q) = argC m c (ix2 P Q) := by
  show (V m c main_arg2 : S8192x2048.Idx → EReal) (((cfg0.win 2).blk t).view.emb (ix2 p q)) = _
  rw [V_main_arg2]
  refine congrArg (argC m c) (funext fun a => Fin.ext ?_)
  match a with
  | ⟨0, _⟩ => show win0_2.index t (0 : Fin 2) * 512 + 1 * p.val = P.val; omega
  | ⟨1, _⟩ => show win0_2.index t (1 : Fin 2) * 256 + 1 * q.val = Q.val; omega

/-- Gate 1, the rows of the first half of `W₁`. -/
theorem w1x_blk (c : Dev nD) (t : Fin cfg0.N) (q : Fin 256) (k : Fin 2048) (Q : Fin 2048)
    (hQ : Q.val = win0_3.index t (0 : Fin 2) * 256 + q.val) (h0 : win0_3.index t (1 : Fin 2) = 0) :
    (iblk m c 3 t : S256x2048.Idx → EReal) (ix2 q k) = argW1 m c (ix2 Q (lo k)) := by
  show (V m c main_v1 : S2048x2048.Idx → EReal) (((cfg0.win 3).blk t).view.emb (ix2 q k)) = _
  refine Eq.trans (congrArg (V m c main_v1 : S2048x2048.Idx → EReal) (funext fun a => Fin.ext ?_)) (V_w1x_apply m c Q k)
  match a with
  | ⟨0, _⟩ => show win0_3.index t (0 : Fin 2) * 256 + 1 * q.val = Q.val; omega
  | ⟨1, _⟩ => show win0_3.index t (1 : Fin 2) * 2048 + 1 * k.val = k.val; omega

/-- Gate 1, the rows of the second half of `W₁`. -/
theorem w1h_blk (c : Dev nD) (t : Fin cfg0.N) (q : Fin 256) (k : Fin 2048) (Q : Fin 2048)
    (hQ : Q.val = win0_4.index t (0 : Fin 2) * 256 + q.val) (h0 : win0_4.index t (1 : Fin 2) = 0) :
    (iblk m c 4 t : S256x2048.Idx → EReal) (ix2 q k) = argW1 m c (ix2 Q (hi k)) := by
  show (V m c main_v3 : S2048x2048.Idx → EReal) (((cfg0.win 4).blk t).view.emb (ix2 q k)) = _
  refine Eq.trans (congrArg (V m c main_v3 : S2048x2048.Idx → EReal) (funext fun a => Fin.ext ?_)) (V_w1h_apply m c Q k)
  match a with
  | ⟨0, _⟩ => show win0_4.index t (0 : Fin 2) * 256 + 1 * q.val = Q.val; omega
  | ⟨1, _⟩ => show win0_4.index t (1 : Fin 2) * 2048 + 1 * k.val = k.val; omega

/-- Gate 1, the biases. -/
theorem b1_blk (c : Dev nD) (t : Fin cfg0.N) (q : Fin 256) (Q : Fin 2048)
    (hQ : Q.val = win0_5.index t (0 : Fin 1) * 256 + q.val) :
    (iblk m c 5 t : S256.Idx → EReal) (ix1 q) = argB1 m c (ix1 Q) := by
  show (V m c main_arg4 : S2048.Idx → EReal) (((cfg0.win 5).blk t).view.emb (ix1 q)) = _
  rw [V_main_arg4]
  refine congrArg (argB1 m c) (funext fun a => Fin.ext ?_)
  match a with
  | ⟨0, _⟩ => show win0_5.index t (0 : Fin 1) * 256 + 1 * q.val = Q.val; omega

/-- Gate 2, the rows of the first half of `W₂`. -/
theorem w2x_blk (c : Dev nD) (t : Fin cfg0.N) (q : Fin 256) (k : Fin 2048) (Q : Fin 2048)
    (hQ : Q.val = win0_6.index t (0 : Fin 2) * 256 + q.val) (h0 : win0_6.index t (1 : Fin 2) = 0) :
    (iblk m c 6 t : S256x2048.Idx → EReal) (ix2 q k) = argW2 m c (ix2 Q (lo k)) := by
  show (V m c main_v5 : S2048x2048.Idx → EReal) (((cfg0.win 6).blk t).view.emb (ix2 q k)) = _
  refine Eq.trans (congrArg (V m c main_v5 : S2048x2048.Idx → EReal) (funext fun a => Fin.ext ?_)) (V_w2x_apply m c Q k)
  match a with
  | ⟨0, _⟩ => show win0_6.index t (0 : Fin 2) * 256 + 1 * q.val = Q.val; omega
  | ⟨1, _⟩ => show win0_6.index t (1 : Fin 2) * 2048 + 1 * k.val = k.val; omega

/-- Gate 2, the rows of the second half of `W₂`. -/
theorem w2h_blk (c : Dev nD) (t : Fin cfg0.N) (q : Fin 256) (k : Fin 2048) (Q : Fin 2048)
    (hQ : Q.val = win0_7.index t (0 : Fin 2) * 256 + q.val) (h0 : win0_7.index t (1 : Fin 2) = 0) :
    (iblk m c 7 t : S256x2048.Idx → EReal) (ix2 q k) = argW2 m c (ix2 Q (hi k)) := by
  show (V m c main_v7 : S2048x2048.Idx → EReal) (((cfg0.win 7).blk t).view.emb (ix2 q k)) = _
  refine Eq.trans (congrArg (V m c main_v7 : S2048x2048.Idx → EReal) (funext fun a => Fin.ext ?_)) (V_w2h_apply m c Q k)
  match a with
  | ⟨0, _⟩ => show win0_7.index t (0 : Fin 2) * 256 + 1 * q.val = Q.val; omega
  | ⟨1, _⟩ => show win0_7.index t (1 : Fin 2) * 2048 + 1 * k.val = k.val; omega

/-- Gate 2, the biases. -/
theorem b2_blk (c : Dev nD) (t : Fin cfg0.N) (q : Fin 256) (Q : Fin 2048)
    (hQ : Q.val = win0_8.index t (0 : Fin 1) * 256 + q.val) :
    (iblk m c 8 t : S256.Idx → EReal) (ix1 q) = argB2 m c (ix1 Q) := by
  show (V m c main_arg6 : S2048.Idx → EReal) (((cfg0.win 8).blk t).view.emb (ix1 q)) = _
  rw [V_main_arg6]
  refine congrArg (argB2 m c) (funext fun a => Fin.ext ?_)
  match a with
  | ⟨0, _⟩ => show win0_8.index t (0 : Fin 1) * 256 + 1 * q.val = Q.val; omega

/-- Gate 3, the rows of the first half of `W₃`. -/
theorem w3x_blk (c : Dev nD) (t : Fin cfg0.N) (q : Fin 256) (k : Fin 2048) (Q : Fin 2048)
    (hQ : Q.val = win0_9.index t (0 : Fin 2) * 256 + q.val) (h0 : win0_9.index t (1 : Fin 2) = 0) :
    (iblk m c 9 t : S256x2048.Idx → EReal) (ix2 q k) = argW3 m c (ix2 Q (lo k)) := by
  show (V m c main_v9 : S2048x2048.Idx → EReal) (((cfg0.win 9).blk t).view.emb (ix2 q k)) = _
  refine Eq.trans (congrArg (V m c main_v9 : S2048x2048.Idx → EReal) (funext fun a => Fin.ext ?_)) (V_w3x_apply m c Q k)
  match a with
  | ⟨0, _⟩ => show win0_9.index t (0 : Fin 2) * 256 + 1 * q.val = Q.val; omega
  | ⟨1, _⟩ => show win0_9.index t (1 : Fin 2) * 2048 + 1 * k.val = k.val; omega

/-- Gate 3, the rows of the second half of `W₃`. -/
theorem w3h_blk (c : Dev nD) (t : Fin cfg0.N) (q : Fin 256) (k : Fin 2048) (Q : Fin 2048)
    (hQ : Q.val = win0_10.index t (0 : Fin 2) * 256 + q.val) (h0 : win0_10.index t (1 : Fin 2) = 0) :
    (iblk m c 10 t : S256x2048.Idx → EReal) (ix2 q k) = argW3 m c (ix2 Q (hi k)) := by
  show (V m c main_v11 : S2048x2048.Idx → EReal) (((cfg0.win 10).blk t).view.emb (ix2 q k)) = _
  refine Eq.trans (congrArg (V m c main_v11 : S2048x2048.Idx → EReal) (funext fun a => Fin.ext ?_)) (V_w3h_apply m c Q k)
  match a with
  | ⟨0, _⟩ => show win0_10.index t (0 : Fin 2) * 256 + 1 * q.val = Q.val; omega
  | ⟨1, _⟩ => show win0_10.index t (1 : Fin 2) * 2048 + 1 * k.val = k.val; omega

/-- Gate 3, the biases. -/
theorem b3_blk (c : Dev nD) (t : Fin cfg0.N) (q : Fin 256) (Q : Fin 2048)
    (hQ : Q.val = win0_11.index t (0 : Fin 1) * 256 + q.val) :
    (iblk m c 11 t : S256.Idx → EReal) (ix1 q) = argB3 m c (ix1 Q) := by
  show (V m c main_arg8 : S2048.Idx → EReal) (((cfg0.win 11).blk t).view.emb (ix1 q)) = _
  rw [V_main_arg8]
  refine congrArg (argB3 m c) (funext fun a => Fin.ext ?_)
  match a with
  | ⟨0, _⟩ => show win0_11.index t (0 : Fin 1) * 256 + 1 * q.val = Q.val; omega

/-- Gate 4, the rows of the first half of `W₄`. -/
theorem w4x_blk (c : Dev nD) (t : Fin cfg0.N) (q : Fin 256) (k : Fin 2048) (Q : Fin 2048)
    (hQ : Q.val = win0_12.index t (0 : Fin 2) * 256 + q.val) (h0 : win0_12.index t (1 : Fin 2) = 0) :
    (iblk m c 12 t : S256x2048.Idx → EReal) (ix2 q k) = argW4 m c (ix2 Q (lo k)) := by
  show (V m c main_v13 : S2048x2048.Idx → EReal) (((cfg0.win 12).blk t).view.emb (ix2 q k)) = _
  refine Eq.trans (congrArg (V m c main_v13 : S2048x2048.Idx → EReal) (funext fun a => Fin.ext ?_)) (V_w4x_apply m c Q k)
  match a with
  | ⟨0, _⟩ => show win0_12.index t (0 : Fin 2) * 256 + 1 * q.val = Q.val; omega
  | ⟨1, _⟩ => show win0_12.index t (1 : Fin 2) * 2048 + 1 * k.val = k.val; omega

/-- Gate 4, the rows of the second half of `W₄`. -/
theorem w4h_blk (c : Dev nD) (t : Fin cfg0.N) (q : Fin 256) (k : Fin 2048) (Q : Fin 2048)
    (hQ : Q.val = win0_13.index t (0 : Fin 2) * 256 + q.val) (h0 : win0_13.index t (1 : Fin 2) = 0) :
    (iblk m c 13 t : S256x2048.Idx → EReal) (ix2 q k) = argW4 m c (ix2 Q (hi k)) := by
  show (V m c main_v15 : S2048x2048.Idx → EReal) (((cfg0.win 13).blk t).view.emb (ix2 q k)) = _
  refine Eq.trans (congrArg (V m c main_v15 : S2048x2048.Idx → EReal) (funext fun a => Fin.ext ?_)) (V_w4h_apply m c Q k)
  match a with
  | ⟨0, _⟩ => show win0_13.index t (0 : Fin 2) * 256 + 1 * q.val = Q.val; omega
  | ⟨1, _⟩ => show win0_13.index t (1 : Fin 2) * 2048 + 1 * k.val = k.val; omega

/-- Gate 4, the biases. -/
theorem b4_blk (c : Dev nD) (t : Fin cfg0.N) (q : Fin 256) (Q : Fin 2048)
    (hQ : Q.val = win0_14.index t (0 : Fin 1) * 256 + q.val) :
    (iblk m c 14 t : S256.Idx → EReal) (ix1 q) = argB4 m c (ix1 Q) := by
  show (V m c main_arg10 : S2048.Idx → EReal) (((cfg0.win 14).blk t).view.emb (ix1 q)) = _
  rw [V_main_arg10]
  refine congrArg (argB4 m c) (funext fun a => Fin.ext ?_)
  match a with
  | ⟨0, _⟩ => show win0_14.index t (0 : Fin 1) * 256 + 1 * q.val = Q.val; omega

/-! ## The printed index maps over the grid -/

/-- The activations' windows move with the output's row tile; the row tile is below 16 and the column tile below 8. -/
theorem idx_act : ∀ t : Fin cfg0.N, win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = win0_15.index t (1 : Fin 2)
    ∧ win0_16.index t (0 : Fin 2) = win0_15.index t (0 : Fin 2) ∧ win0_16.index t (1 : Fin 2) = win0_15.index t (1 : Fin 2)
    ∧ win0_15.index t (0 : Fin 2) ≤ 15 ∧ win0_15.index t (1 : Fin 2) ≤ 7 :=
  (by decide +kernel : ∀ t : Fin grid0.N, _)

/-- The first two gates' weight and bias windows move with the output's column tile. -/
theorem idx_gate12 : ∀ t : Fin cfg0.N, win0_3.index t (0 : Fin 2) = win0_15.index t (1 : Fin 2) ∧ win0_3.index t (1 : Fin 2) = 0
    ∧ win0_4.index t (0 : Fin 2) = win0_15.index t (1 : Fin 2) ∧ win0_4.index t (1 : Fin 2) = 0
    ∧ win0_5.index t (0 : Fin 1) = win0_15.index t (1 : Fin 2)
    ∧ win0_6.index t (0 : Fin 2) = win0_15.index t (1 : Fin 2) ∧ win0_6.index t (1 : Fin 2) = 0
    ∧ win0_7.index t (0 : Fin 2) = win0_15.index t (1 : Fin 2) ∧ win0_7.index t (1 : Fin 2) = 0
    ∧ win0_8.index t (0 : Fin 1) = win0_15.index t (1 : Fin 2) :=
  (by decide +kernel : ∀ t : Fin grid0.N, _)

/-- So do the last two gates'. -/
theorem idx_gate34 : ∀ t : Fin cfg0.N, win0_9.index t (0 : Fin 2) = win0_15.index t (1 : Fin 2) ∧ win0_9.index t (1 : Fin 2) = 0
    ∧ win0_10.index t (0 : Fin 2) = win0_15.index t (1 : Fin 2) ∧ win0_10.index t (1 : Fin 2) = 0
    ∧ win0_11.index t (0 : Fin 1) = win0_15.index t (1 : Fin 2)
    ∧ win0_12.index t (0 : Fin 2) = win0_15.index t (1 : Fin 2) ∧ win0_12.index t (1 : Fin 2) = 0
    ∧ win0_13.index t (0 : Fin 2) = win0_15.index t (1 : Fin 2) ∧ win0_13.index t (1 : Fin 2) = 0
    ∧ win0_14.index t (0 : Fin 1) = win0_15.index t (1 : Fin 2) :=
  (by decide +kernel : ∀ t : Fin grid0.N, _)

/-- Every pair of a row tile and a column tile is some grid point's. -/
theorem idx_onto : ∀ (a : Fin 16) (b : Fin 8), ∃ t : Fin cfg0.N, win0_15.index t = ![a.val, b.val] :=
  (by decide +kernel : ∀ (a : Fin 16) (b : Fin 8), ∃ t : Fin grid0.N, win0_15.index t = ![a.val, b.val])

end Cert.Lstm.Win

end
-- ==== Proof.LstmArray.lean ====
/-
  From blocks to arrays: after the run each output array is `newH` / `newC` of the argument arrays.

  At a grid point with row tile `a` and column tile `b` the body stores, at `(p, q)` of each output block, the
  tanh / logistic combination of the gates' pre-activations on the blocks it loaded. Those blocks are restrictions
  of the argument arrays — the `x` and `h` blocks to rows `512 a + p`, the weight and bias blocks to hidden units
  `256 b + q`, the cell block to both — so the stored element is `newH` (or `newC`) of the whole arrays at
  `(512 a + p, 256 b + q)`, which is where the output window puts it. The 16 × 8 tiles of 512 × 256 cover the
  [8192, 2048] array (the point that covers `(r, s)` has tiles `r / 512` and `s / 256`), every point writes its block
  back, so each output array ends holding the whole function.
-/
import proofs.«150189_j9878424781322_1_alg».proof.Proof.Gen.KernelIdeal.Value
import proofs.«150189_j9878424781322_1_alg».proof.Proof.KernelGate
import proofs.«150189_j9878424781322_1_alg».proof.Proof.LstmWindows

open scoped BigOperators

noncomputable section

namespace Cert.Lstm.Arr

open Cert.KernelIdeal Cert.KernelIdeal.Gen Idealize.ShloMosaic Idealize.ShloMosaic.TcCoe Idealize.SL.Sem
open Idealize.ShloMosaic.Pipeline (Dat)
open Idealize.ShloMosaic.ValueIdx Cert.Lstm Cert.Lstm.Win Cert.Lstm.Body

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- A gate's pre-activation on blocks that are restrictions of the arrays — the `x` and `h` blocks' row `p` being the
    arrays' row `P`, the weight blocks' row `q` the two halves of the matrix's row `Q`, the bias block's entry `q` the
    bias's entry `Q` — is the pre-activation on the arrays at `(P, Q)`. -/
theorem preBlk_eq_pre (xb hb : S512x2048.Idx → EReal) (wi wh : S256x2048.Idx → EReal) (b : S256.Idx → EReal)
    (X H : S8192x2048.Idx → EReal) (W : S2048x4096.Idx → EReal) (B : S2048.Idx → EReal) (p : Fin 512) (q : Fin 256)
    (P : Fin 8192) (Q : Fin 2048) (hx : ∀ k, xb (ix2 p k) = X (ix2 P k)) (hh : ∀ k, hb (ix2 p k) = H (ix2 P k))
    (hwi : ∀ k, wi (ix2 q k) = W (ix2 Q (lo k))) (hwh : ∀ k, wh (ix2 q k) = W (ix2 Q (hi k)))
    (hb' : b (ix1 q) = B (ix1 Q)) : preBlk xb hb wi wh b p q = pre X H W B P Q := by
  unfold preBlk pre
  simp only [hx, hh, hwi, hwh, hb']

/-! ## The new hidden state (output window 15) -/

/-- What point `t` writes back to the first result is block `t` of `newH` of the argument arrays. -/
theorem flushedH_eq (c : Dev nD) (t : Fin cfg0.N) :
    (dats m 0 c).flushed 15 t
      = ((cfg0.win 15).blk t).view.read (Elt Ideal) (newH (argX m c) (argH m c) (argC m c) (argW4 m c) (argB4 m c)) := by
  rw [Cert.KernelIdeal.Value.flushed15]
  unfold out0_15
  rw [View.canon_unit_zero hz]
  simp only [View.ld_unit_zero (S := S512x2048) hz, View.ld_unit_zero (S := S512x256) hz,
    View.ld_unit_zero (S := S256x2048) hz, View.ld_unit_zero (S := S256) hz1]
  refine funext fun (y : S512x256.Idx) => ?_
  obtain ⟨p, q, rfl⟩ : ∃ (p : Fin 512) (q : Fin 256), y = ix2 p q := ⟨y 0, y 1, eq_ix2 y⟩
  obtain ⟨a0, a1, a2, a3, a4, a5, -, -, ha, hb⟩ := idx_act t
  obtain ⟨-, -, -, -, -, g0, g1, g2, g3, g4⟩ := idx_gate34 t
  have hp : p.val < 512 := p.isLt
  have hq : q.val < 256 := q.isLt
  obtain ⟨P, hPv⟩ : ∃ P : Fin 8192, P.val = win0_15.index t (0 : Fin 2) * 512 + p.val := ⟨⟨_, by omega⟩, rfl⟩
  obtain ⟨Q, hQv⟩ : ∃ Q : Fin 2048, Q.val = win0_15.index t (1 : Fin 2) * 256 + q.val := ⟨⟨_, by omega⟩, rfl⟩
  show k0_pay2 (F := Ideal) (k0_pay3 (iblk m c 0 t)) (k0_pay4 (iblk m c 1 t)) (iblk m c 2 t) (iblk m c 12 t)
      (iblk m c 13 t) (iblk m c 14 t) (ix2 p q)
    = newH (argX m c) (argH m c) (argC m c) (argW4 m c) (argB4 m c) (((cfg0.win 15).blk t).view.emb (ix2 p q))
  have hemb : ((cfg0.win 15).blk t).view.emb (ix2 p q) = ix2 P Q :=
    funext fun a => Fin.ext (by
      match a with
      | ⟨0, _⟩ => show win0_15.index t (0 : Fin 2) * 512 + 1 * p.val = P.val; rw [hPv, Nat.one_mul]
      | ⟨1, _⟩ => show win0_15.index t (1 : Fin 2) * 256 + 1 * q.val = Q.val; rw [hQv, Nat.one_mul])
  rw [hemb]
  refine (pay2_apply (iblk m c 0 t) (iblk m c 1 t) (iblk m c 2 t) (iblk m c 12 t) (iblk m c 13 t) (iblk m c 14 t) p q).trans ?_
  show _ = Ideal.tanh (argC m c (ix2 P Q)) * Ideal.logistic (pre (argX m c) (argH m c) (argW4 m c) (argB4 m c) P Q)
  exact congrArg₂ (fun u v => Ideal.tanh u * Ideal.logistic v)
    (c_blk m c t p q P Q (by rw [a4]; exact hPv) (by rw [a5]; exact hQv))
    (preBlk_eq_pre (iblk m c 0 t) (iblk m c 1 t) (iblk m c 12 t) (iblk m c 13 t) (iblk m c 14 t)
      (argX m c) (argH m c) (argW4 m c) (argB4 m c) p q P Q
      (fun k => x_blk m c t p k P (by rw [a0]; exact hPv) a1)
      (fun k => h_blk m c t p k P (by rw [a2]; exact hPv) a3)
      (fun k => w4x_blk m c t q k Q (by rw [g0]; exact hQv) g1)
      (fun k => w4h_blk m c t q k Q (by rw [g2]; exact hQv) g3)
      (b4_blk m c t q Q (by rw [g4]; exact hQv)))

/-- An index of the array is in point `t`'s block iff each coordinate is in the block's range on its axis. -/
theorem mem_blkH (t : Fin cfg0.N) (i : S8192x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v18_0).slice (win0_15.rect t)).set ↔ _
  rw [View.set_slice_whole, Rect.mem_set_unit]
  exact Iff.rfl

/-- Every element of the first result is in the block of the point with its row tile and column tile. -/
theorem coverH (i : S8192x2048.Idx) :
    ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blkH]
  intro a
  match a with
  | ⟨0, _⟩ =>
    show win0_15.index t (0 : Fin 2) * 512 ≤ (i 0).val ∧ (i 0).val < win0_15.index t (0 : Fin 2) * 512 + 512
    omega
  | ⟨1, _⟩ =>
    show win0_15.index t (1 : Fin 2) * 256 ≤ (i 1).val ∧ (i 1).val < win0_15.index t (1 : Fin 2) * 256 + 256
    omega

/-- The first result after the run: `newH` of the argument arrays. -/
theorem finalH (c : Dev nD) :
    (dats m 0 c).arrAt 15 cfg0.N = newH (argX m c) (argH m c) (argC m c) (argW4 m c) (argB4 m c) :=
  (dats m 0 c).arrAt_eq_of_cover 15 (newH (argX m c) (argH m c) (argC m c) (argW4 m c) (argB4 m c))
    (fun t _ => flushedH_eq m c t) coverH

/-! ## The new cell state (output window 16) -/

/-- The cell update is a function of the cell element and the three pre-activations. -/
theorem cell_congr {u u' z1 z1' z2 z2' z3 z3' : EReal} (hu : u = u') (h1 : z1 = z1') (h2 : z2 = z2') (h3 : z3 = z3') :
    u * Ideal.logistic z1 + Ideal.logistic z2 * Ideal.tanh z3
      = u' * Ideal.logistic z1' + Ideal.logistic z2' * Ideal.tanh z3' := by
  subst hu h1 h2 h3; rfl

/-- What point `t` writes back to the second result is block `t` of `newC` of the argument arrays. -/
theorem flushedC_eq (c : Dev nD) (t : Fin cfg0.N) :
    (dats m 0 c).flushed 16 t
      = ((cfg0.win 16).blk t).view.read (Elt Ideal)
          (newC (argX m c) (argH m c) (argC m c) (argW1 m c) (argB1 m c) (argW2 m c) (argB2 m c) (argW3 m c) (argB3 m c)) := by
  rw [Cert.KernelIdeal.Value.flushed16]
  unfold out0_16
  rw [View.canon_unit_zero hz]
  simp only [View.ld_unit_zero (S := S512x2048) hz, View.ld_unit_zero (S := S512x256) hz,
    View.ld_unit_zero (S := S256x2048) hz, View.ld_unit_zero (S := S256) hz1]
  refine funext fun (y : S512x256.Idx) => ?_
  obtain ⟨p, q, rfl⟩ : ∃ (p : Fin 512) (q : Fin 256), y = ix2 p q := ⟨y 0, y 1, eq_ix2 y⟩
  obtain ⟨a0, a1, a2, a3, a4, a5, a6, a7, ha, hb⟩ := idx_act t
  obtain ⟨e0, e1, e2, e3, e4, e5, e6, e7, e8, e9⟩ := idx_gate12 t
  obtain ⟨g0, g1, g2, g3, g4, -, -, -, -, -⟩ := idx_gate34 t
  have hp : p.val < 512 := p.isLt
  have hq : q.val < 256 := q.isLt
  obtain ⟨P, hPv⟩ : ∃ P : Fin 8192, P.val = win0_15.index t (0 : Fin 2) * 512 + p.val := ⟨⟨_, by omega⟩, rfl⟩
  obtain ⟨Q, hQv⟩ : ∃ Q : Fin 2048, Q.val = win0_15.index t (1 : Fin 2) * 256 + q.val := ⟨⟨_, by omega⟩, rfl⟩
  show k0_pay1 (F := Ideal) (k0_pay4 (iblk m c 1 t)) (iblk m c 2 t)
      (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t))
      (k0_pay7 (iblk m c 10 t)) (k0_pay8 (iblk m c 0 t) (iblk m c 9 t)) (constant S512x256 .f32 0x00000000#32)
      (iblk m c 11 t) (ix2 p q)
    = newC (argX m c) (argH m c) (argC m c) (argW1 m c) (argB1 m c) (argW2 m c) (argB2 m c) (argW3 m c) (argB3 m c)
        (((cfg0.win 16).blk t).view.emb (ix2 p q))
  have hemb : ((cfg0.win 16).blk t).view.emb (ix2 p q) = ix2 P Q :=
    funext fun a => Fin.ext (by
      match a with
      | ⟨0, _⟩ => show win0_16.index t (0 : Fin 2) * 512 + 1 * p.val = P.val; rw [a6, hPv, Nat.one_mul]
      | ⟨1, _⟩ => show win0_16.index t (1 : Fin 2) * 256 + 1 * q.val = Q.val; rw [a7, hQv, Nat.one_mul])
  rw [hemb]
  refine (pay1_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p q).trans ?_
  show _ = argC m c (ix2 P Q) * Ideal.logistic (pre (argX m c) (argH m c) (argW1 m c) (argB1 m c) P Q)
      + Ideal.logistic (pre (argX m c) (argH m c) (argW2 m c) (argB2 m c) P Q)
        * Ideal.tanh (pre (argX m c) (argH m c) (argW3 m c) (argB3 m c) P Q)
  have hx : ∀ k, (iblk m c 0 t : S512x2048.Idx → EReal) (ix2 p k) = argX m c (ix2 P k) :=
    fun k => x_blk m c t p k P (by rw [a0]; exact hPv) a1
  have hh : ∀ k, (iblk m c 1 t : S512x2048.Idx → EReal) (ix2 p k) = argH m c (ix2 P k) :=
    fun k => h_blk m c t p k P (by rw [a2]; exact hPv) a3
  have hc := c_blk m c t p q P Q (by rw [a4]; exact hPv) (by rw [a5]; exact hQv)
  have h1 := preBlk_eq_pre (iblk m c 0 t) (iblk m c 1 t) (iblk m c 3 t) (iblk m c 4 t) (iblk m c 5 t)
    (argX m c) (argH m c) (argW1 m c) (argB1 m c) p q P Q hx hh
    (fun k => w1x_blk m c t q k Q (by rw [e0]; exact hQv) e1) (fun k => w1h_blk m c t q k Q (by rw [e2]; exact hQv) e3)
    (b1_blk m c t q Q (by rw [e4]; exact hQv))
  have h2 := preBlk_eq_pre (iblk m c 0 t) (iblk m c 1 t) (iblk m c 6 t) (iblk m c 7 t) (iblk m c 8 t)
    (argX m c) (argH m c) (argW2 m c) (argB2 m c) p q P Q hx hh
    (fun k => w2x_blk m c t q k Q (by rw [e5]; exact hQv) e6) (fun k => w2h_blk m c t q k Q (by rw [e7]; exact hQv) e8)
    (b2_blk m c t q Q (by rw [e9]; exact hQv))
  have h3 := preBlk_eq_pre (iblk m c 0 t) (iblk m c 1 t) (iblk m c 9 t) (iblk m c 10 t) (iblk m c 11 t)
    (argX m c) (argH m c) (argW3 m c) (argB3 m c) p q P Q hx hh
    (fun k => w3x_blk m c t q k Q (by rw [g0]; exact hQv) g1) (fun k => w3h_blk m c t q k Q (by rw [g2]; exact hQv) g3)
    (b3_blk m c t q Q (by rw [g4]; exact hQv))
  exact cell_congr hc h1 h2 h3

/-- An index of the array is in point `t`'s block of the second result iff each coordinate is in the block's range. -/
theorem mem_blkC (t : Fin cfg0.N) (i : S8192x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v18_1).slice (win0_16.rect t)).set ↔ _
  rw [View.set_slice_whole, Rect.mem_set_unit]
  exact Iff.rfl

/-- Every element of the second result is in the block of the point with its row tile and column tile. -/
theorem coverC (i : S8192x2048.Idx) :
    ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  obtain ⟨-, -, -, -, -, -, a6, a7, -, -⟩ := idx_act t
  refine ⟨t, flush0_16 t, ?_⟩
  rw [mem_blkC]
  intro a
  match a with
  | ⟨0, _⟩ =>
    show win0_16.index t (0 : Fin 2) * 512 ≤ (i 0).val ∧ (i 0).val < win0_16.index t (0 : Fin 2) * 512 + 512
    omega
  | ⟨1, _⟩ =>
    show win0_16.index t (1 : Fin 2) * 256 ≤ (i 1).val ∧ (i 1).val < win0_16.index t (1 : Fin 2) * 256 + 256
    omega

/-- The second result after the run: `newC` of the argument arrays. -/
theorem finalC (c : Dev nD) :
    (dats m 0 c).arrAt 16 cfg0.N
      = newC (argX m c) (argH m c) (argC m c) (argW1 m c) (argB1 m c) (argW2 m c) (argB2 m c) (argW3 m c) (argB3 m c) :=
  (dats m 0 c).arrAt_eq_of_cover 16
    (newC (argX m c) (argH m c) (argC m c) (argW1 m c) (argB1 m c) (argW2 m c) (argB2 m c) (argW3 m c) (argB3 m c))
    (fun t _ => flushedC_eq m c t) coverC

/-! ## The run -/

/-- Every weakly fair execution of the idealized kernel's program terminates with the two results at `newH` and `newC`
    of the argument arrays, the arguments unchanged. -/
theorem run : θ_run defs (onTc (τ := τ) (main (F := Ideal))) ⟨m, fun _ => 0, ρ⟩ fun r => ∀ c : Dev nD,
      r.2.mem ((c : Thread nD τ).loc main_v18_0) = newH (argX m c) (argH m c) (argC m c) (argW4 m c) (argB4 m c)
      ∧ r.2.mem ((c : Thread nD τ).loc main_v18_1)
          = newC (argX m c) (argH m c) (argC m c) (argW1 m c) (argB1 m c) (argW2 m c) (argB2 m c) (argW3 m c) (argB3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalH m c), (h c).2.1.trans (finalC m c), (h c).2.2⟩)
    (Cert.KernelIdeal.Value.run_blocks m ρ)

end Cert.Lstm.Arr

end
-- ==== Proof.RefGate.lean ====
/-
  The reference program's two results are the functions `newH` and `newC` of the argument arrays.

  The reference joins `x` and `h` side by side into rows of length 4096 and multiplies them by the transposed
  weight matrix: its element `(p, q)` is the sum over the 4096 positions `k` of the joined row's `k`-th entry times
  `W (q, k)`. The first 2048 positions of a joined row are `x`'s row and the last 2048 are `h`'s row, so splitting
  the sum into its halves gives exactly the two sums of `pre`; the bias, broadcast in two steps, is `b q`. The
  logistic function is spelt out by the reference as `1 / (1 + e^(-z))` with the literal `1.0`, which is the extended
  real one, and that expression is the ideal instance's definition of the logistic function.
-/
import proofs.«150189_j9878424781322_1_alg».proof.Proof.Gen.ReferenceIdeal.Read
import proofs.«150189_j9878424781322_1_alg».proof.Proof.LstmSpec
import Idealize.ShloMosaic.Lib.ValueLayout
import Idealize.ShloMosaic.Lib.IdealHost

open scoped BigOperators

noncomputable section

namespace Cert.Lstm.Ref

open Cert.ReferenceIdeal Cert.ReferenceIdeal.Gen Cert.ReferenceIdeal.Read
open Idealize.ShloMosaic Idealize.ShloMosaic.ValueIdx Cert.Lstm

/-- The first half of a joined row is `x`'s row. -/
theorem joined_lo (x0 x1 : FVec Ideal S8192x2048 .f32) (p : Fin 8192) (k : Fin 2048) :
    val_main_v0 (F := Ideal) x0 x1 (ix2 p (lo k)) = x0 (ix2 p k) := by
  unfold val_main_v0
  exact concatenate_pair_apply_left _ x0 x1 _ (ix2 p (lo k)) rfl (ix2 p k) (fun b => by
    match b with
    | ⟨0, _⟩ => rfl
    | ⟨1, _⟩ => rfl)

/-- The second half of a joined row is `h`'s row. -/
theorem joined_hi (x0 x1 : FVec Ideal S8192x2048 .f32) (p : Fin 8192) (k : Fin 2048) :
    val_main_v0 (F := Ideal) x0 x1 (ix2 p (hi k)) = x1 (ix2 p k) := by
  unfold val_main_v0
  refine concatenate_pair_apply_right _ x0 x1 _ (ix2 p (hi k)) rfl rfl (ix2 p k) (fun b hb => ?_) ?_
  · match b with
    | ⟨0, _⟩ => rfl
    | ⟨1, _⟩ => exact absurd rfl hb
  · show k.val + 2048 = 2048 + k.val
    omega

/-- The transposed weight matrix at `(k, q)` is the weight matrix at `(q, k)`. -/
theorem wT_apply (W : FVec Ideal S2048x4096 .f32) (k : Fin 4096) (q : Fin 2048) :
    val_main_v1 (F := Ideal) W (ix2 k q) = W (ix2 q k) := by
  unfold val_main_v1
  exact transpose_ix2_apply W _ k q

/-- The bias, broadcast to a row and then down the batch, at `(p, q)` is unit `q`'s bias. -/
theorem bias_ref (b : FVec Ideal S2048 .f32) (p : Fin 8192) (q : Fin 2048) :
    val_main_v4 (F := Ideal) b (ix2 p q) = b (ix1 q) := by
  rw [val_main_v4_apply, val_main_v3_apply]
  exact congrArg b (funext fun a => by
    match a with
    | ⟨0, _⟩ => rfl)

/-- The product's left and right operand positions at result `(p, q)` and contraction position `k`. -/
theorem lidx_eq (p : Fin 8192) (q : Fin 2048) (k : Fin 4096) : lidx_main_v2 (ix2 p q) k = ix2 p k :=
  funext fun a => by
    match a with
    | ⟨0, _⟩ => rfl
    | ⟨1, _⟩ => rfl
theorem ridx_eq (p : Fin 8192) (q : Fin 2048) (k : Fin 4096) : ridx_main_v2 (ix2 p q) k = ix2 k q :=
  funext fun a => by
    match a with
    | ⟨0, _⟩ => rfl
    | ⟨1, _⟩ => rfl

/-- A gate's pre-activation as the reference computes it — the joined rows times the transposed weights, plus the
    broadcast bias — is `pre`: the sum over the 4096 joined positions splits into `x`'s half and `h`'s half. -/
theorem gate_ref (x0 x1 : FVec Ideal S8192x2048 .f32) (W : FVec Ideal S2048x4096 .f32) (b : FVec Ideal S2048 .f32)
    (p : Fin 8192) (q : Fin 2048) : val_main_v5 (F := Ideal) x0 x1 W b (ix2 p q) = pre x0 x1 W b p q := by
  rw [val_main_v5_apply, val_main_v2_apply, sum_halves, bias_ref]
  simp only [lidx_eq, ridx_eq, joined_lo, joined_hi, wT_apply]
  rfl

/-- The logistic function as the reference spells it. -/
theorem logistic_ref (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32, Ideal.logistic]

/-- The reference's first result is `newH` of its arguments. -/
theorem newH_ref (x0 x1 x2 : FVec Ideal S8192x2048 .f32) (W4 : FVec Ideal S2048x4096 .f32) (b4 : FVec Ideal S2048 .f32) :
    val_main_v44 (F := Ideal) x0 x1 x2 W4 b4 = newH x0 x1 x2 W4 b4 := by
  funext j
  obtain ⟨p, q, rfl⟩ : ∃ (p : Fin 8192) (q : Fin 2048), j = ix2 p q := ⟨j 0, j 1, eq_ix2 j⟩
  rw [val_main_v44_apply, val_main_v43_apply, val_main_v39_apply, val_main_v38_apply, val_main_cst_4_apply,
    val_main_v37_apply, val_main_v36_apply, val_main_cst_3_apply, val_main_v35_apply, val_main_v34_apply,
    show val_main_v33 (F := Ideal) x0 x1 W4 b4 = val_main_v5 (F := Ideal) x0 x1 W4 b4 from rfl, gate_ref, logistic_ref]
  rfl

/-- The reference's second result is `newC` of its arguments. -/
theorem newC_ref (x0 x1 x2 : FVec Ideal S8192x2048 .f32) (W1 : FVec Ideal S2048x4096 .f32) (b1 : FVec Ideal S2048 .f32)
    (W2 : FVec Ideal S2048x4096 .f32) (b2 : FVec Ideal S2048 .f32) (W3 : FVec Ideal S2048x4096 .f32)
    (b3 : FVec Ideal S2048 .f32) :
    val_main_v42 (F := Ideal) x0 x1 x2 W1 b1 W2 b2 W3 b3 = newC x0 x1 x2 W1 b1 W2 b2 W3 b3 := by
  funext j
  obtain ⟨p, q, rfl⟩ : ∃ (p : Fin 8192) (q : Fin 2048), j = ix2 p q := ⟨j 0, j 1, eq_ix2 j⟩
  rw [val_main_v42_apply, val_main_v40_apply, val_main_v41_apply,
    val_main_v11_apply, val_main_v10_apply, val_main_cst_0_apply, val_main_v9_apply, val_main_v8_apply,
    val_main_cst_apply, val_main_v7_apply, val_main_v6_apply, gate_ref, logistic_ref,
    val_main_v22_apply, val_main_v21_apply, val_main_cst_2_apply, val_main_v20_apply, val_main_v19_apply,
    val_main_cst_1_apply, val_main_v18_apply, val_main_v17_apply,
    show val_main_v16 (F := Ideal) x0 x1 W2 b2 = val_main_v5 (F := Ideal) x0 x1 W2 b2 from rfl, gate_ref, logistic_ref,
    val_main_v28_apply,
    show val_main_v27 (F := Ideal) x0 x1 W3 b3 = val_main_v5 (F := Ideal) x0 x1 W3 b3 from rfl, gate_ref]
  rfl

end Cert.Lstm.Ref

end
-- ==== Proof.lean ====
/-
  One LSTM step, computed two ways, gives the same two arrays over the extended reals.

  Both programs take the input `x` and hidden state `h` [8192, 2048], the cell state `c` [8192, 2048] and, per gate, a
  weight matrix [2048, 4096] and a bias [2048]. A gate's pre-activation at batch row `p`, hidden unit `q` is
  `[x (p, ·), h (p, ·)] · W (q, ·) + b q`. The reference forms the joined rows of length 4096 and takes one product
  with the transposed matrix; the kernel never joins anything: it multiplies `x` against the first 2048 columns of
  `W` and `h` against the last 2048, tile by tile (512 batch rows × 256 hidden units per grid point), and adds the
  two. A sum over 4096 positions is the sum over its first half plus the sum over its second — additions regrouped,
  nothing distributed or cancelled — so the two agree on every extended real, infinities included, and the inputs'
  finiteness is never used. The kernel's bf16 casts are the identity at the ideal values; its logistic function and
  the reference's `1 / (1 + e^(-z))` are one function there, and so are the two tanh. The results are
  `newH = tanh c · σ (pre₄)` (the tanh of the OLD cell state) and `newC = c · σ (pre₁) + σ (pre₂) · tanh (pre₃)`
  (LstmSpec), which the kernel's run reaches block by block (KernelGate, LstmWindows, LstmArray) and the
  reference's run operation by operation (RefGate). The three frames are the programs' runs with the results
  dropped; the kernel's idealization rewrote nothing, so there is nothing to preserve.
-/
import proofs.«150189_j9878424781322_1_alg».proof.Defs
import proofs.«150189_j9878424781322_1_alg».proof.Proof.Gen.Kernel
import proofs.«150189_j9878424781322_1_alg».proof.Proof.Gen.Kernel.Skeleton
import proofs.«150189_j9878424781322_1_alg».proof.Proof.Gen.Kernel.Launch
import proofs.«150189_j9878424781322_1_alg».proof.Proof.Gen.Kernel.Points
import proofs.«150189_j9878424781322_1_alg».proof.Proof.Gen.Kernel.Frame
import proofs.«150189_j9878424781322_1_alg».proof.Proof.Gen.KernelIdeal
import proofs.«150189_j9878424781322_1_alg».proof.Proof.Gen.KernelIdeal.Skeleton
import proofs.«150189_j9878424781322_1_alg».proof.Proof.Gen.KernelIdeal.Launch
import proofs.«150189_j9878424781322_1_alg».proof.Proof.Gen.KernelIdeal.Points
import proofs.«150189_j9878424781322_1_alg».proof.Proof.Gen.KernelIdeal.Frame
import proofs.«150189_j9878424781322_1_alg».proof.Proof.Gen.ReferenceIdeal
import proofs.«150189_j9878424781322_1_alg».proof.Proof.Gen.Pre_finite_inputs
import proofs.«150189_j9878424781322_1_alg».proof.Proof.Gen.KernelIdeal.Value
import proofs.«150189_j9878424781322_1_alg».proof.Proof.Gen.ReferenceIdeal.Run
import proofs.«150189_j9878424781322_1_alg».proof.Proof.Gen.ReferenceIdeal.Read
import proofs.«150189_j9878424781322_1_alg».proof.Proof.LstmArray
import proofs.«150189_j9878424781322_1_alg».proof.Proof.RefGate
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments the kernel ends at `newH`, `newC` of its arguments and the reference at
    the same two functions of its own, which are the same arrays. -/
theorem algebraic : Cert.algebraic_KernelIdeal_ReferenceIdeal := by
  intro m ρ m' ρ' _ hagree
  refine ⟨fun c => Cert.Lstm.newH (Cert.Lstm.Win.argX m c) (Cert.Lstm.Win.argH m c) (Cert.Lstm.Win.argC m c)
      (Cert.Lstm.Win.argW4 m c) (Cert.Lstm.Win.argB4 m c),
    fun c => Cert.Lstm.newC (Cert.Lstm.Win.argX m c) (Cert.Lstm.Win.argH m c) (Cert.Lstm.Win.argC m c)
      (Cert.Lstm.Win.argW1 m c) (Cert.Lstm.Win.argB1 m c) (Cert.Lstm.Win.argW2 m c) (Cert.Lstm.Win.argB2 m c)
      (Cert.Lstm.Win.argW3 m c) (Cert.Lstm.Win.argB3 m c),
    Cert.Lstm.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, -, -, -, -, -, -, e9, e10⟩ := hagree c
    rw [e0, e1, e2, e9, e10]
    exact (Cert.ReferenceIdeal.Read.val_main_v44_eq _ _ _ _ _).trans (Cert.Lstm.Ref.newH_ref _ _ _ _ _)
  · obtain ⟨e0, e1, e2, e3, e4, e5, e6, e7, e8, -, -⟩ := hagree c
    rw [e0, e1, e2, e3, e4, e5, e6, e7, e8]
    exact (Cert.ReferenceIdeal.Read.val_main_v42_eq _ _ _ _ _ _ _ _ _).trans (Cert.Lstm.Ref.newC_ref _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
